-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S1 .f32) (main_arg2 : FVec F S128x128 .f32) (main_arg3 : FVec F S128 .f32) (main_arg4 : IVec S2x800000 32) (main_arg5 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64 : Shape := ⟨1, ![64]⟩
abbrev S50000x1 : Shape := ⟨2, ![50000, 1]⟩
abbrev S1x64 : Shape := ⟨2, ![1, 64]⟩
abbrev S50000x64 : Shape := ⟨2, ![50000, 64]⟩
abbrev S64x128 : Shape := ⟨2, ![64, 128]⟩
abbrev S5000x128 : Shape := ⟨2, ![5000, 128]⟩
abbrev S5000x64 : Shape := ⟨2, ![5000, 64]⟩
abbrev S1x1 : Shape := ⟨2, ![1, 1]⟩
abbrev S1x128 : Shape := ⟨2, ![1, 128]⟩

abbrev nBuf : Space → Nat
  | .hbm => 32
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S128x128, .f32⟩
  | .hbm, ⟨3, _⟩ => ⟨S128, .f32⟩
  | .hbm, ⟨4, _⟩ => ⟨S2x800000, .i32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S64, .i32⟩
  | .hbm, ⟨24, _⟩ => ⟨S50000x1, .i32⟩
  | .hbm, ⟨25, _⟩ => ⟨S1x64, .i32⟩
  | .hbm, ⟨26, _⟩ => ⟨S50000x64, .i32⟩
  | .hbm, ⟨27, _⟩ => ⟨S50000x64, .i32⟩
  | .hbm, ⟨28, _⟩ => ⟨S50000x64, .i1⟩
  | .hbm, ⟨29, _⟩ => ⟨S50000x64, .bf16⟩
  | .hbm, ⟨30, _⟩ => ⟨S50000x128, .f32⟩
  | .hbm, ⟨31, _⟩ => ⟨S64x128, .f32⟩
  | .local _ .vmem, ⟨0, _⟩ => ⟨S1, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x64, .bf16⟩
  | .local _ .vmem, ⟨6, _⟩ => ⟨S5000x64, .bf16⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S64x128, .f32⟩
  | .local _ .vmem, ⟨12, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_19 : BitVec 32 := 0#32
  let v35 : BitVec 1 := Scalar.cmpi .ne v34 c0_i32_19
  v35

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1_S1_0 : ∀ a, (![0] : Fin 1 → Nat) a + S1.size a ≤ S1.size a
  h_S1 : 0 < S1.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S1_S1x1 : S1.ShapeCasts S1x1
  broadcasts_S1x1_S5000x128 : S1x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_arg1) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S64x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S1 : Shape := ⟨1, ![1]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩
abbrev S1x128 : Shape := ⟨2, ![1, 128]⟩
abbrev S64x128 : Shape := ⟨2, ![64, 128]⟩
abbrev S50000x1 : Shape := ⟨2, ![50000, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S128x128, .f32⟩
  | .hbm, ⟨3, _⟩ => ⟨S128, .f32⟩
  | .hbm, ⟨4, _⟩ => ⟨S2x800000, .i32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S64x128, .f32⟩
  | .hbm, ⟨39, _⟩ => ⟨S50000x1, .i32⟩
  | .hbm, ⟨40, _⟩ => ⟨S64x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.Spec.lean ====
/-
  What the two programs compute, as functions of the argument arrays, index by index over the extended reals.

  Nodes are rows `n < 50000`, features columns `d < 128`, graphs `g < 64`.
  * `nodeOut`: a node's new features, `max ((1 + eps) · x + agg, 0)`, with `agg` the summed neighbour features
    (the same host computation in both programs, carried here as one array).
  * `lin`: the linear prediction of a node, `(∑ k, h n k · W k d) + b d`.
  * `pool`: a graph's pooled prediction, the sum of `p n d` over the nodes `n` whose graph id is `g`;
    a node whose id is outside `0 … 63` belongs to no graph.
  The one law used between the two programs' arrangements of `pool`: a sum over the 50000 nodes is the sum over
  ten consecutive blocks of 5000 nodes of the blocks' sums (addition of extended reals is commutative and
  associative, so no finiteness is needed), and a 0/1 membership factor selects the summand.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- nodes × features -/
abbrev SNxD : Shape := ⟨2, ![50000, 128]⟩
/-- features × features -/
abbrev SDxD : Shape := ⟨2, ![128, 128]⟩
/-- features -/
abbrev SD : Shape := ⟨1, ![128]⟩
/-- the one-element vector holding eps -/
abbrev SE : Shape := ⟨1, ![1]⟩
/-- nodes -/
abbrev SNodes : Shape := ⟨1, ![50000]⟩
/-- graphs × features -/
abbrev SGxD : Shape := ⟨2, ![64, 128]⟩

/-- A node's new features: `max ((1 + eps) · x + agg, 0)`. -/
def nodeOut (x : SNxD.Idx → EReal) (e : SE.Idx → EReal) (agg : SNxD.Idx → EReal) : SNxD.Idx → EReal :=
  fun i => max ((Ideal.ofBits .f32 0x3F800000#32 + e (ix1 0)) * x i + agg i) (Ideal.ofBits .f32 0x00000000#32)

/-- The linear prediction of node `n` at feature `d`. -/
def lin (h : SNxD.Idx → EReal) (W : SDxD.Idx → EReal) (b : SD.Idx → EReal) (n : Fin 50000) (d : Fin 128) : EReal :=
  (∑ k : Fin 128, h (ix2 n k) * W (ix2 k d)) + b (ix1 d)

/-- Graph `g`'s pooled value at feature `d`: the sum of `p n d` over the nodes whose graph id is `g`. -/
def pool (batch : SNodes.Idx → BitVec 32) (p : Fin 50000 → Fin 128 → EReal) (g : Fin 64) (d : Fin 128) : EReal :=
  ∑ n : Fin 50000, if batch (ix1 n) = BitVec.ofNat 32 g.val then p n d else 0

/-- The first result: every node's new features. -/
def outG (x : SNxD.Idx → EReal) (e : SE.Idx → EReal) (agg : SNxD.Idx → EReal) : SNxD.Idx → EReal :=
  nodeOut x e agg

/-- The second result: every graph's pooled linear prediction of the new features. -/
def poolG (x : SNxD.Idx → EReal) (e : SE.Idx → EReal) (agg : SNxD.Idx → EReal) (W : SDxD.Idx → EReal) (b : SD.Idx → EReal)
    (batch : SNodes.Idx → BitVec 32) : SGxD.Idx → EReal :=
  fun j => pool batch (lin (nodeOut x e agg) W b) ⟨(j 0).val, idx2_lt0 j⟩ ⟨(j 1).val, idx2_lt1 j⟩

/-- Node `5000 · s + r` of block `s`. -/
def nodeOf (s : Nat) (hs : s < 10) (r : Fin 5000) : Fin 50000 := ⟨5000 * s + r.val, by have := r.isLt; omega⟩

/-- The sum over block `s` (nothing past the tenth block). -/
def blockSum (f : Fin 50000 → EReal) (s : Nat) : EReal :=
  if hs : s < 10 then ∑ r : Fin 5000, f (nodeOf s hs r) else 0

/-- A sum over all nodes is the sum of the ten blocks' sums. -/
theorem sum_blocks (f : Fin 50000 → EReal) : ∑ s ∈ Finset.range 10, blockSum f s = ∑ n : Fin 50000, f n := by
  have e : (∑ n : Fin 50000, f n)
      = ∑ p : Fin 10 × Fin 5000, f ((finProdFinEquiv : Fin 10 × Fin 5000 ≃ Fin 50000) p) :=
    (Equiv.sum_comp (finProdFinEquiv : Fin 10 × Fin 5000 ≃ Fin 50000) f).symm
  rw [e, Fintype.sum_prod_type, ← Fin.sum_univ_eq_sum_range (fun s => blockSum f s) 10]
  refine Finset.sum_congr rfl fun s _ => ?_
  unfold blockSum
  rw [dif_pos s.isLt]
  refine Finset.sum_congr rfl fun r _ => congrArg f (Fin.ext ?_)
  show 5000 * s.val + r.val = r.val + 5000 * s.val
  omega

/-- A 0/1 membership factor (a one-bit word read as a number) selects the summand. -/
theorem bit_mul (c : BitVec 1) (a : EReal) : (((c.toNat : ℝ) : EReal)) * a = if c = 1#1 then a else 0 := by
  by_cases h : c = 1#1
  · subst h
    simp
  · obtain rfl : c = 0#1 := eq_zero_of_ne_one h
    simp

end Cert.Spec

end
-- ==== Proof.LibScatter.lean ====
/-
  Two general facts for reading a `stablehlo.scatter` (jax's `.at[idx].add`, `segment_sum`) at an index, for any
  scatter dimension numbers and shapes.
-/
import Idealize.ShloMosaic.PureOps.Ideal

noncomputable section

namespace Cert.LibScatter

open Idealize.ShloMosaic

/-- WHERE AN UPDATE LANDS. For any scatter dimension numbers, update index `j` lands on operand index `i` exactly
    when, on every operand axis, the window's start (the index word read signed, not clamped) plus the window
    coordinate is `i`'s coordinate: inside the operand the result index is that sum, and a sum equal to a coordinate
    of `i` is inside. Turns the filter of the exact scatter-add sum (`Ideal.hostScatterAdd`) into arithmetic. -/
theorem resultIdx?_eq_some_iff {s si u : Shape} (sd : ScatterDims s si u) {w : Nat} (j : u.Idx) (idx : IVec si w)
    (i : s.Idx) :
    sd.resultIdx? j idx = some i ↔ ∀ a, sd.start j idx a + (sd.window j a : Int) = ((i a).val : Int) := by
  unfold ScatterDims.resultIdx?
  split
  next h =>
    constructor
    · intro he a
      have h1 := congrArg Fin.val (congrFun (Option.some.inj he) a)
      simp only at h1
      have := (h a).1
      omega
    · intro hall
      congr 1
      funext a
      refine Fin.ext ?_
      simp only
      rw [hall a]
      exact Int.toNat_natCast _
  next h =>
    constructor
    · intro he; cases he
    · intro hall
      exact absurd (fun a => by
        rw [hall a]
        exact ⟨Int.natCast_nonneg _, by exact_mod_cast (i a).isLt⟩) h

/-- A 32-bit word read signed is the natural number `g < 2 ^ 31` exactly when it is the word of `g`: below
    `2 ^ 31` the signed and the unsigned reading agree, and a negative word equals no natural number. -/
theorem toInt_eq_natCast_iff (b : BitVec 32) (g : Nat) (hg : g < 2 ^ 31) :
    b.toInt = (g : Int) ↔ b = BitVec.ofNat 32 g := by
  constructor
  · intro h
    apply BitVec.eq_of_toNat_eq
    rw [BitVec.toNat_ofNat]
    have := BitVec.toInt_eq_toNat_cond (x := b)
    have := b.isLt
    split at * <;> omega
  · intro h
    subst h
    rw [BitVec.toInt_eq_toNat_cond, BitVec.toNat_ofNat]
    have : g % 2 ^ 32 = g := Nat.mod_eq_of_lt (by omega)
    rw [this, if_pos (by omega)]

end Cert.LibScatter

end
-- ==== Proof.ScatterRows.lean ====
/-
  The reference's pooling step read at an index. A row scatter-add of a [50000, 128] array of updates into a
  [64, 128] operand, the row of update `n` named by the `n`-th index word: at row `g` and column `d` the result is
  the operand there plus the sum of the updates' column `d` over the rows `n` whose index word is `g`. An index
  word is read signed and not clamped, and an update whose row falls outside `0 … 63` is dropped, so a word equal
  to no `g < 64` contributes to no row.
-/
import proofs.«413581_j53060025975246_1_alg».proof.Proof.Gen.ReferenceIdeal
import proofs.«413581_j53060025975246_1_alg».proof.Proof.LibScatter
import Idealize.ShloMosaic.PureOps.Ideal
import Idealize.ShloMosaic.PureOps.Ideal.Laws
import Idealize.ShloMosaic.Lib.ValueIdx

noncomputable section

namespace Cert.RefScatter

open Cert.ReferenceIdeal Idealize.ShloMosaic Idealize.ShloMosaic.ValueIdx

/-- On the row axis the window of update `(n, c)` starts at row `n`'s index word, read signed. -/
theorem start_row (idx : IVec S50000x1 32) (n : Fin 50000) (c : Fin 128) :
    scatter_S64x128_S50000x1_S50000x128_1_0_0_1.start (ix2 n c) idx (0 : Fin 2) = (idx (ix2 n 0)).toInt := by
  unfold ScatterDims.start
  rw [dif_pos (show (0 : Fin 2) ∈ scatter_S64x128_S50000x1_S50000x128_1_0_0_1.scatterDimsToOperandDims from
    List.mem_singleton.mpr rfl)]
  congr 2
  funext b
  refine Fin.ext ?_
  match b with
  | ⟨0, _⟩ => rfl
  | ⟨1, _⟩ => rfl

/-- The column axis is not a scattered one: the window starts at `0` there. -/
theorem start_col (idx : IVec S50000x1 32) (n : Fin 50000) (c : Fin 128) :
    scatter_S64x128_S50000x1_S50000x128_1_0_0_1.start (ix2 n c) idx (1 : Fin 2) = 0 := by
  unfold ScatterDims.start
  exact dif_neg (by decide)

/-- The row axis is an inserted one: the window coordinate is `0` there. -/
theorem window_row (n : Fin 50000) (c : Fin 128) :
    scatter_S64x128_S50000x1_S50000x128_1_0_0_1.window (ix2 n c) (0 : Fin 2) = 0 := by
  unfold ScatterDims.window
  exact dif_neg (by decide)

/-- On the column axis the window coordinate of update `(n, c)` is its column `c`. -/
theorem window_col (n : Fin 50000) (c : Fin 128) :
    scatter_S64x128_S50000x1_S50000x128_1_0_0_1.window (ix2 n c) (1 : Fin 2) = c.val := by
  unfold ScatterDims.window
  rw [dif_pos (by decide)]
  rfl

/-- A 32-bit word read signed is a row number `g < 64` exactly when it is the word of `g`. -/
theorem toInt_eq_row_iff (b : BitVec 32) (g : Fin 64) : b.toInt = (g.val : Int) ↔ b = BitVec.ofNat 32 g.val :=
  Cert.LibScatter.toInt_eq_natCast_iff b g.val (by have := g.isLt; omega)

/-- Update `(n, c)` lands on operand element `(g, d)` exactly when row `n`'s index word is the word of `g` and the
    columns agree. -/
theorem lands_iff (idx : IVec S50000x1 32) (n : Fin 50000) (c : Fin 128) (g : Fin 64) (d : Fin 128) :
    scatter_S64x128_S50000x1_S50000x128_1_0_0_1.resultIdx? (ix2 n c) idx = some (ix2 g d)
      ↔ idx (ix2 n 0) = BitVec.ofNat 32 g.val ∧ c = d := by
  rw [Cert.LibScatter.resultIdx?_eq_some_iff, Fin.forall_fin_two, start_row, start_col, window_row, window_col, ← toInt_eq_row_iff]
  show (idx (ix2 n 0)).toInt + ((0 : Nat) : Int) = (g.val : Int) ∧ (0 : Int) + (c.val : Int) = (d.val : Int) ↔ _
  rw [Fin.ext_iff]
  omega

theorem scatterAdd_rows (z : FVec Ideal S64x128 .f32) (idx : IVec S50000x1 32) (upd : FVec Ideal S50000x128 .f32)
    (g : Fin 64) (d : Fin 128) :
    Host.scatterAdd (F := Ideal) scatter_S64x128_S50000x1_S50000x128_1_0_0_1 z idx upd (ix2 g d)
      = z (ix2 g d) + ∑ n : Fin 50000, if idx (ix2 n 0) = BitVec.ofNat 32 g.val then upd (ix2 n d) else 0 := by
  -- the scatter-add at an element: the operand there plus the sum of the updates that land on it
  show z (ix2 g d) + ∑ j ∈ Finset.univ.filter
      (fun j => scatter_S64x128_S50000x1_S50000x128_1_0_0_1.resultIdx? j idx = some (ix2 g d)), upd j = _
  refine congrArg (fun t => z (ix2 g d) + t) ?_
  -- the sum over the updates' indices is the double sum over rows and columns, the filter an `if`
  rw [Finset.sum_filter, sum_idx2]
  refine Finset.sum_congr rfl fun n _ => ?_
  simp only [lands_iff]
  -- in row `n` only column `d` can land on `(g, d)`, and it does exactly when the row's index word is `g`
  by_cases hg : idx (ix2 n 0) = BitVec.ofNat 32 g.val
  · simp only [hg, true_and, if_true]
    rw [Finset.sum_ite_eq' Finset.univ d (fun c => upd (ix2 n c)), if_pos (Finset.mem_univ d)]
  · simp only [hg, false_and, if_false]
    exact Finset.sum_const_zero

end Cert.RefScatter

end
-- ==== Proof.RefValue.lean ====
/-
  The reference computes the specification. Its first result is the node update of the arguments with the summed
  neighbour features; its second is the row scatter-add, by graph id, of the linear prediction of the first, which
  read at graph `g`, column `d` is zero plus the sum over the nodes whose id is `g` of their prediction at `d`.
-/
import proofs.«413581_j53060025975246_1_alg».proof.Proof.Gen.ReferenceIdeal.Read
import proofs.«413581_j53060025975246_1_alg».proof.Proof.Spec
import proofs.«413581_j53060025975246_1_alg».proof.Proof.ScatterRows

noncomputable section

namespace Cert.RefValue

open Cert.ReferenceIdeal Cert.ReferenceIdeal.Read Idealize.ShloMosaic Idealize.ShloMosaic.ValueIdx

/-- The first result is the node update. -/
theorem out_eq (x0 : (⟨S50000x128, .f32⟩ : BufTy).Contents (Elt Ideal)) (x1 : (⟨S1, .f32⟩ : BufTy).Contents (Elt Ideal))
    (x4 : (⟨S2x800000, .i32⟩ : BufTy).Contents (Elt Ideal)) :
    val_main_v20 (F := Ideal) x0 x1 x4 = Cert.Spec.outG x0 x1 (val_main_v13 (F := Ideal) x0 x4) := by
  funext i
  have e1 : idx_main_v16 (idx_main_v17 i) = ix1 (0 : Fin 1) := funext fun a => Fin.ext (by match a with | ⟨0, _⟩ => rfl)
  rw [val_main_v20_apply, val_main_v19_apply, val_main_v18_apply, val_main_v17_apply, val_main_v16_apply,
    val_main_v15_apply, val_main_v14_apply, val_main_cst_1_apply, val_main_call0_v0_apply, val_main_call0_cst_apply, e1]
  rfl

/-- The linear prediction of the first result, read at node `n`, column `d`. -/
theorem lin_eq (x0 : (⟨S50000x128, .f32⟩ : BufTy).Contents (Elt Ideal)) (x1 : (⟨S1, .f32⟩ : BufTy).Contents (Elt Ideal))
    (x2 : (⟨S128x128, .f32⟩ : BufTy).Contents (Elt Ideal)) (x3 : (⟨S128, .f32⟩ : BufTy).Contents (Elt Ideal))
    (x4 : (⟨S2x800000, .i32⟩ : BufTy).Contents (Elt Ideal)) (n : Fin 50000) (d : Fin 128) :
    val_main_v24 (F := Ideal) x0 x1 x2 x3 x4 (ix2 n d)
      = Cert.Spec.lin (Cert.Spec.nodeOut x0 x1 (val_main_v13 (F := Ideal) x0 x4)) x2 x3 n d := by
  have eb : idx_main_v22 (idx_main_v23 (ix2 n d)) = ix1 d := funext fun a => Fin.ext (by match a with | ⟨0, _⟩ => rfl)
  have el : ∀ k : Fin 128, lidx_main_v21 (ix2 n d) k = ix2 n k := fun k => funext fun a => Fin.ext (by
    match a with
    | ⟨0, _⟩ => rfl
    | ⟨1, _⟩ => rfl)
  have er : ∀ k : Fin 128, ridx_main_v21 (ix2 n d) k = ix2 k d := fun k => funext fun a => Fin.ext (by
    match a with
    | ⟨0, _⟩ => rfl
    | ⟨1, _⟩ => rfl)
  rw [val_main_v24_apply, val_main_v21_apply, val_main_v23_apply, val_main_v22_apply, eb, out_eq]
  simp only [el, er]
  rfl

/-- The second result is the pooled linear prediction. -/
theorem pool_eq (x0 : (⟨S50000x128, .f32⟩ : BufTy).Contents (Elt Ideal)) (x1 : (⟨S1, .f32⟩ : BufTy).Contents (Elt Ideal))
    (x2 : (⟨S128x128, .f32⟩ : BufTy).Contents (Elt Ideal)) (x3 : (⟨S128, .f32⟩ : BufTy).Contents (Elt Ideal))
    (x4 : (⟨S2x800000, .i32⟩ : BufTy).Contents (Elt Ideal)) (x5 : (⟨S50000, .i32⟩ : BufTy).Contents (Elt Ideal)) :
    val_main_v27 (F := Ideal) x0 x1 x2 x3 x4 x5
      = Cert.Spec.poolG x0 x1 (val_main_v13 (F := Ideal) x0 x4) x2 x3 x5 := by
  funext j
  obtain ⟨g, d, rfl⟩ : ∃ (g : Fin 64) (d : Fin 128), j = ix2 g d := ⟨j 0, j 1, eq_ix2 j⟩
  unfold val_main_v27
  rw [Cert.RefScatter.scatterAdd_rows, val_main_v25_apply, val_main_cst_2_apply]
  show Ideal.ofBits .f32 0x00000000#32 + _ = _
  rw [Ideal.ofBits_zero_f32, zero_add]
  unfold Cert.Spec.poolG Cert.Spec.pool
  refine Finset.sum_congr rfl fun n _ => ?_
  have ei : idx_main_v26 (ix2 n (0 : Fin 1)) = ix1 n := funext fun a => Fin.ext (by match a with | ⟨0, _⟩ => rfl)
  rw [val_main_v26_apply, ei, lin_eq]

end Cert.RefValue

end
-- ==== Proof.Pieces.lean ====
/-
  What one grid point's body leaves behind, as values. The body stores three things: the zero block into the
  scratch accumulator (first point only), the block of new node features `max ((1 + eps) · x + agg, 0)` into the
  first output's buffer (every point), and the accumulator plus this block's pooled contribution back into the
  accumulator (every point); at the last point it also copies the accumulator into the second output's buffer.
  Each buffer is covered by whole-block stores, so what it holds afterwards is the last store's value, a function
  of the blocks the body loaded: the node update of (eps, x-block, agg-block), and the accumulator update of those
  with the weights, the bias, the membership block and the accumulator's previous contents (the zero block at the
  first point).
-/
import proofs.«413581_j53060025975246_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords) (arg1 : Memref sig .tc .vmem S1 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x64 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole) (arg8 : Memref sig .tc .vmem S64x128 .f32) (harg8 : arg8.IsWhole) (arg9 : Memref sig .tc .vmem S64x128 .f32) (harg9 : arg9.IsWhole)
  (x0 : Vec F S1 .f32) (x1 : Vec F S5000x128 .f32) (x2 : Vec F S5000x128 .f32) (x3 : Vec F S5000x64 .bf16)
  (x4 : Vec F S128x128 .f32) (x5 : Vec F S128 .f32) (xs0 : Vec F S64x128 .f32)

/-- First point: the first output's buffer ends at the node update of the loaded blocks. -/
theorem node_A (hc0 : cond0_0 i) (hc1 : ¬cond0_1 i) :
    out0_A_6 c i arg1 harg1 arg2 harg2 arg3 harg3 arg4 harg4 arg5 harg5 arg6 harg6 arg7 harg7 arg8 harg8 arg9 harg9 hc0 hc1 x0 x1 x2 x3 x4 x5 = k0_pay2 x0 x1 x2 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1]

/-- A middle point: the same. -/
theorem node_B (hc0 : ¬cond0_0 i) (hc1 : ¬cond0_1 i) :
    out0_B_6 c i arg1 harg1 arg2 harg2 arg3 harg3 arg4 harg4 arg5 harg5 arg6 harg6 arg7 harg7 arg8 harg8 arg9 harg9 hc0 hc1 x0 x1 x2 x3 x4 x5 xs0 = k0_pay2 x0 x1 x2 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1]

/-- The last point: the same. -/
theorem node_C (hc0 : ¬cond0_0 i) (hc1 : cond0_1 i) :
    out0_C_6 c i arg1 harg1 arg2 harg2 arg3 harg3 arg4 harg4 arg5 harg5 arg6 harg6 arg7 harg7 arg8 harg8 arg9 harg9 hc0 hc1 x0 x1 x2 x3 x4 x5 xs0 = k0_pay2 x0 x1 x2 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1]

/-- First point: the accumulator is reset to the zero block and then updated, so it ends at the update of zero. -/
theorem acc_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5 = k0_pay3 x0 x1 x2 x4 x5 x3 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S64x128) hz2, View.readCov_unit_zero (S := S64x128) _ hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1, View.readCov_unit_zero (S := S64x128) _ hz2]

/-- A middle point: the accumulator ends at the update of what the point before left. -/
theorem acc_B (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 xs0 = k0_pay3 x0 x1 x2 x4 x5 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1, harg9.read_unread]

/-- The last point: the same. -/
theorem acc_C (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 x5 xs0 = k0_pay3 x0 x1 x2 x4 x5 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1, harg9.read_unread]

/-- The last point copies the updated accumulator into the second output's buffer. -/
theorem pooled_C (hc0 : ¬cond0_0 i) (hc1 : cond0_1 i) :
    out0_C_7 c i arg1 harg1 arg2 harg2 arg3 harg3 arg4 harg4 arg5 harg5 arg6 harg6 arg7 harg7 arg8 harg8 arg9 harg9 hc0 hc1 x0 x1 x2 x3 x4 x5 xs0 = k0_pay3 x0 x1 x2 x4 x5 x3 xs0 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S5000x64) hz2, View.ld_unit_zero (S := S128x128) hz2, View.ld_unit_zero (S := S64x128) hz2, View.ld_unit_zero (S := S1) hz1, View.ld_unit_zero (S := S128) hz1, harg9.read_unread, View.readCov_unit_zero (S := S64x128) _ hz2]

end Cert.KernelIdeal.Pieces

end
-- ==== Proof.HostArrays.lean ====
/-
  The two arrays the kernel's program computes on the host before the grid runs.
  * The summed neighbour features: the same gather and row scatter-add of the same arguments as the reference's, so
    the same array.
  * The membership array: entry (n, g) is the one-bit word "node n's graph id equals g" read as a number, so a
    product with it keeps the other factor when the id is `g` and is zero otherwise — zero times anything is zero
    over the extended reals, infinities included.
-/
import proofs.«413581_j53060025975246_1_alg».proof.Proof.Gen.KernelIdeal.Frame
import proofs.«413581_j53060025975246_1_alg».proof.Proof.Gen.ReferenceIdeal.Read
import proofs.«413581_j53060025975246_1_alg».proof.Proof.Spec
import Idealize.ShloMosaic.Lib.Pipeline.Value
import Idealize.ShloMosaic.Lib.StableHlo.Run
import Idealize.ShloMosaic.Lib.StableHlo.Predicate

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The arrays the grid finds, each named at its literal type. -/
abbrev xArr (c : Dev nD) : Vec Ideal S50000x128 .f32 := V m c main_arg0
abbrev epsArr (c : Dev nD) : Vec Ideal S1 .f32 := V m c main_arg1
abbrev wArr (c : Dev nD) : Vec Ideal S128x128 .f32 := V m c main_arg2
abbrev bArr (c : Dev nD) : Vec Ideal S128 .f32 := V m c main_arg3
abbrev aggArr (c : Dev nD) : Vec Ideal S50000x128 .f32 := V m c main_v13
abbrev memberArr (c : Dev nD) : Vec Ideal S50000x64 .bf16 := V m c main_v20
/-- The graph ids, as launched. -/
abbrev batchArr (c : Dev nD) : IVec S50000 32 := m ((c : Thread nD τ).loc main_arg5)

/-- No host operation writes an argument: the grid finds each as launched. -/
theorem xArr_eq (c : Dev nD) : xArr m c = m ((c : Thread nD τ).loc main_arg0) := V_main_arg0 m c
theorem epsArr_eq (c : Dev nD) : epsArr m c = m ((c : Thread nD τ).loc main_arg1) := V_main_arg1 m c
theorem wArr_eq (c : Dev nD) : wArr m c = m ((c : Thread nD τ).loc main_arg2) := V_main_arg2 m c
theorem bArr_eq (c : Dev nD) : bArr m c = m ((c : Thread nD τ).loc main_arg3) := V_main_arg3 m c

/-- The neighbour sums the grid finds are the reference's function of the same two arguments. -/
theorem agg_eq (c : Dev nD) :
    aggArr m c
      = Cert.ReferenceIdeal.Read.val_main_v13 (F := Ideal) (m ((c : Thread nD τ).loc main_arg0)) (m ((c : Thread nD τ).loc main_arg4)) := by
  dsimp only [aggArr, V, hostOps0]
  after_results
  rfl

/-- A vector laid along the rows of a [50000, 64] rectangle reads the vector at the row. -/
theorem rows_apply (v : IVec S50000 32) (n : Fin 50000) (g : Fin 64) :
    broadcastInDim S50000x64 ![0, 1] bcast_S50000x1_S50000x64_0_1 (broadcastInDim S50000x1 ![0] bcast_S50000_S50000x1_0 v) (ix2 n g)
      = v (ix1 n) :=
  (broadcastInDim_apply _ bcast_S50000x1_S50000x64_0_1 _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl])).trans
    (broadcastInDim_apply _ bcast_S50000_S50000x1_0 v (ix2 n (0 : Fin 1)) (ix1 n) (fun a => match a with
      | ⟨0, _⟩ => by show n.val = if (50000 : Nat) = 1 then 0 else n.val; rw [if_neg (by decide)]))

/-- A vector laid along the columns of a [50000, 64] rectangle reads the vector at the column. -/
theorem cols_apply (v : IVec S64 32) (n : Fin 50000) (g : Fin 64) :
    broadcastInDim S50000x64 ![0, 1] bcast_S1x64_S50000x64_0_1 (broadcastInDim S1x64 ![1] bcast_S64_S1x64_1 v) (ix2 n g)
      = v (ix1 g) :=
  (broadcastInDim_apply _ bcast_S1x64_S50000x64_0_1 _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)])).trans
    (broadcastInDim_apply _ bcast_S64_S1x64_1 v (ix2 (0 : Fin 1) g) (ix1 g) (fun a => match a with
      | ⟨0, _⟩ => by show g.val = if (64 : Nat) = 1 then 0 else g.val; rw [if_neg (by decide)]))

/-- The membership array at (n, g), times `a`: `a` when node `n`'s graph id is `g`, zero otherwise. -/
theorem member_mul (c : Dev nD) (n : Fin 50000) (g : Fin 64) (a : EReal) :
    memberArr m c (ix2 n g) * a = if batchArr m c (ix1 n) = BitVec.ofNat 32 g.val then a else 0 := by
  have e : memberArr m c
      = uitofp (F := Ideal) .bf16 (cmpi .eq
          (broadcastInDim S50000x64 ![0, 1] bcast_S50000x1_S50000x64_0_1 (broadcastInDim S50000x1 ![0] bcast_S50000_S50000x1_0
            (batchArr m c)))
          (broadcastInDim S50000x64 ![0, 1] bcast_S1x64_S50000x64_0_1 (broadcastInDim S1x64 ![1] bcast_S64_S1x64_1
            (iotaInDim S64 32 0)))) := by
    dsimp only [memberArr, batchArr, V, hostOps0]
    after_results
  rw [e]
  show (((IntOp.cmpi .eq
      (broadcastInDim S50000x64 ![0, 1] bcast_S50000x1_S50000x64_0_1 (broadcastInDim S50000x1 ![0] bcast_S50000_S50000x1_0
        (batchArr m c)) (ix2 n g))
      (broadcastInDim S50000x64 ![0, 1] bcast_S1x64_S50000x64_0_1 (broadcastInDim S1x64 ![1] bcast_S64_S1x64_1
        (iotaInDim S64 32 0)) (ix2 n g))).toNat : ℝ) : EReal) * a = _
  rw [rows_apply, cols_apply, Cert.Spec.bit_mul]
  exact if_congr StableHlo.Predicate.cmpi_eq_iff rfl rfl

end Cert.KernelIdeal.HostArrays

end
-- ==== Proof.Payload.lean ====
/-
  The body's two values read at an index, over the extended reals.

  For one block of 5000 nodes, with `e` the loaded eps, `xb`, `ab` the blocks of `x` and of the neighbour sums,
  `W`, `b` the weights and bias, `oh` the block of 0/1 graph memberships and `acc` the accumulator's contents:
  * the node update at row `r`, column `d` is `max ((1 + e) · xb r d + ab r d, 0)`;
  * the accumulator update at graph `g`, column `d` is
    `acc g d + ∑ r, oh r g · ((∑ k, update r k · W k d) + b d)`:
    the first product contracts the feature axis, the second contracts the block's node axis; both are exact sums
    here, and rounding the factors to a narrower format first changes nothing.
-/
import proofs.«413581_j53060025975246_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The scale `1 + e`, laid out as a [1,1] array and broadcast over the block, reads `1 + e` everywhere. -/
theorem scale_apply (w : FVec Ideal S1 .f32) (r : Fin 5000) (d : Fin 128) :
    broadcastTo S5000x128 (shapeCast S1x1 w shapeCasts_S1_S1x1) broadcasts_S1x1_S5000x128 (ix2 r d) = w (ix1 0) :=
  (broadcastTo_apply (shapeCast S1x1 w shapeCasts_S1_S1x1) broadcasts_S1x1_S5000x128 (ix2 r d)
      (ix2 (0 : Fin 1) (0 : Fin 1)) (fun a => match a with
        | ⟨0, _⟩ => rfl
        | ⟨1, _⟩ => rfl)).trans
    (shapeCast_a_1a_apply w shapeCasts_S1_S1x1 0 0)

/-- The bias, laid out as a [1,128] row and broadcast over the block's rows, reads `b d` at column `d`. -/
theorem bias_apply (b : FVec Ideal S128 .f32) (r : Fin 5000) (d : Fin 128) :
    broadcastTo S5000x128 (shapeCast S1x128 b shapeCasts_S128_S1x128) broadcasts_S1x128_S5000x128 (ix2 r d) = b (ix1 d) :=
  (broadcastTo_1b_ab_apply (shapeCast S1x128 b shapeCasts_S128_S1x128) broadcasts_S1x128_S5000x128 r d).trans
    (shapeCast_a_1a_apply b shapeCasts_S128_S1x128 0 d)

/-- The node update of a block at row `r`, column `d`. -/
theorem update_apply (e : Vec Ideal S1 .f32) (xb ab : Vec Ideal S5000x128 .f32) (r : Fin 5000) (d : Fin 128) :
    k0_pay2 (F := Ideal) e xb ab (ix2 r d)
      = max ((Ideal.ofBits .f32 0x3F800000#32 + e (ix1 0)) * xb (ix2 r d) + ab (ix2 r d)) (Ideal.ofBits .f32 0x00000000#32) := by
  unfold k0_pay2
  rw [shapeCast_self]
  exact congrArg (fun s => max (s * xb (ix2 r d) + ab (ix2 r d)) (Ideal.ofBits .f32 0x00000000#32)) (scale_apply _ r d)

/-! The operand indices of the two products, axis by axis. -/

theorem lhs1_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs2_0 (i : S64x128.Idx) (q : dot_S5000x64_S5000x128_S64x128_0_0_1_1_n_n.contr.Idx) : (dot_S5000x64_S5000x128_S64x128_0_0_1_1_n_n.lhsIdx i q 0).val = (q ⟨0, by decide⟩).val :=
  dot_S5000x64_S5000x128_S64x128_0_0_1_1_n_n.lhsIdx_val_of_single rfl i q
theorem lhs2_1 (i : S64x128.Idx) (q : dot_S5000x64_S5000x128_S64x128_0_0_1_1_n_n.contr.Idx) : (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs2_0 (i : S64x128.Idx) (q : dot_S5000x64_S5000x128_S64x128_0_0_1_1_n_n.contr.Idx) : (dot_S5000x64_S5000x128_S64x128_0_0_1_1_n_n.rhsIdx i q 0).val = (q ⟨0, by decide⟩).val :=
  dot_S5000x64_S5000x128_S64x128_0_0_1_1_n_n.rhsIdx_val_of_single rfl i q
theorem rhs2_1 (i : S64x128.Idx) (q : dot_S5000x64_S5000x128_S64x128_0_0_1_1_n_n.contr.Idx) : (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The first product into a zero accumulator: row `r` of the left factor against column `d` of the right. -/
theorem feat_matmul_apply (h : FVec Ideal S5000x128 .bf16) (W : FVec Ideal S128x128 .bf16) (r : Fin 5000) (d : Fin 128) :
    matmul dot_S5000x128_S128x128_S5000x128_1_0_0_1_n_n none h W (constant S5000x128 .f32 0x00000000#32) (ix2 r d)
      = ∑ k : Fin 128, h (ix2 r k) * W (ix2 k d) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r d) ((contrEquiv1 dot_S5000x128_S128x128_S5000x128_1_0_0_1_n_n 128 rfl rfl).symm k) = ix2 r k := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 r d) ((contrEquiv1 dot_S5000x128_S128x128_S5000x128_1_0_0_1_n_n 128 rfl rfl).symm k) = ix2 k d := funext fun a => Fin.ext (by
    match a with
    | ⟨0, _⟩ => exact (rhs1_0 _ _).trans hk
    | ⟨1, _⟩ => exact rhs1_1 _ _)
  rw [el, er]

/-- The second product into a zero accumulator contracts the block's node axis: column `g` of the left factor
    against column `d` of the right. -/
theorem node_matmul_apply (oh : FVec Ideal S5000x64 .bf16) (p : FVec Ideal S5000x128 .bf16) (g : Fin 64) (d : Fin 128) :
    matmul dot_S5000x64_S5000x128_S64x128_0_0_1_1_n_n none oh p (constant S64x128 .f32 0x00000000#32) (ix2 g d)
      = ∑ r : Fin 5000, oh (ix2 r g) * p (ix2 r d) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun a => Fin.ext (by
    match a with
    | ⟨0, _⟩ => exact (lhs2_0 _ _).trans hk
    | ⟨1, _⟩ => exact lhs2_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun a => Fin.ext (by
    match a with
    | ⟨0, _⟩ => exact (rhs2_0 _ _).trans hk
    | ⟨1, _⟩ => exact rhs2_1 _ _)
  rw [el, er]

/-- The accumulator update at graph `g`, column `d`. -/
theorem accumulate_apply (e : Vec Ideal S1 .f32) (xb ab : Vec Ideal S5000x128 .f32) (W : Vec Ideal S128x128 .f32)
    (b : Vec Ideal S128 .f32) (oh : Vec Ideal S5000x64 .bf16) (acc : Vec Ideal S64x128 .f32) (g : Fin 64) (d : Fin 128) :
    k0_pay3 (F := Ideal) e xb ab W b oh acc (ix2 g d)
      = acc (ix2 g d) + ∑ r : Fin 5000, oh (ix2 r g)
          * ((∑ k : Fin 128, k0_pay2 (F := Ideal) e xb ab (ix2 r k) * W (ix2 k d)) + b (ix1 d)) := by
  unfold k0_pay3
  rw [shapeCast_self, shapeCast_self]
  refine (congrArg (acc (ix2 g d) + ·) (node_matmul_apply _ _ g d)).trans ?_
  refine congrArg (acc (ix2 g d) + ·) (Finset.sum_congr rfl fun r _ => congrArg (oh (ix2 r g) * ·) ?_)
  exact congrArg₂ (· + ·) (feat_matmul_apply _ _ r d) (bias_apply b r d)

end Cert.KernelIdeal.Payload

end
-- ==== Proof.Blocks.lean ====
/-
  The blocks the body loads at grid point `t`, read at an index. The node-indexed arrays (x, the neighbour sums,
  the memberships) are cut into ten blocks of 5000 consecutive rows, and point `t` sees rows `5000·t … 5000·t + 4999`;
  eps, the weights and the bias are seen whole at every point. So the node update of point `t`'s blocks, at row `r`,
  is the specification's node update at node `5000·t + r`.
-/
import proofs.«413581_j53060025975246_1_alg».proof.Proof.Gen.KernelIdeal.Frame
import proofs.«413581_j53060025975246_1_alg».proof.Proof.HostArrays
import proofs.«413581_j53060025975246_1_alg».proof.Proof.Payload
import proofs.«413581_j53060025975246_1_alg».proof.Proof.Spec

noncomputable section

namespace Cert.KernelIdeal.Blocks

open Cert.KernelIdeal Cert.KernelIdeal.Gen Cert.KernelIdeal.HostArrays Idealize.ShloMosaic Idealize.ShloMosaic.TcCoe Idealize.SL.Sem
open Idealize.ShloMosaic.ValueIdx

variable (m : (ℓ : Loc nD τ sig) → Buf (Elt Ideal) ℓ)

/-- Point `t`'s blocks, each named at its literal type. -/
abbrev epsBlk (c : Dev nD) (t : Fin cfg0.N) : Vec Ideal S1 .f32 := iblk m c 0 t
abbrev xBlk (c : Dev nD) (t : Fin cfg0.N) : Vec Ideal S5000x128 .f32 := iblk m c 1 t
abbrev aggBlk (c : Dev nD) (t : Fin cfg0.N) : Vec Ideal S5000x128 .f32 := iblk m c 2 t
abbrev memberBlk (c : Dev nD) (t : Fin cfg0.N) : Vec Ideal S5000x64 .bf16 := iblk m c 3 t
abbrev wBlk (c : Dev nD) (t : Fin cfg0.N) : Vec Ideal S128x128 .f32 := iblk m c 4 t
abbrev bBlk (c : Dev nD) (t : Fin cfg0.N) : Vec Ideal S128 .f32 := iblk m c 5 t

/-- The grid has ten points. -/
theorem lt10 (t : Fin cfg0.N) : t.val < 10 := lt_of_lt_of_eq t.isLt N_0

/-- The block index maps, decided over the grid: the node-indexed windows sit at block row `t`, column 0; the
    others at block 0. -/
theorem idx_facts : ∀ t : Fin cfg0.N,
    win0_0.index t (0 : Fin 1) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

theorem eps_blk (c : Dev nD) (t : Fin cfg0.N) : epsBlk m c t (ix1 (0 : Fin 1)) = epsArr m c (ix1 (0 : Fin 1)) := by
  obtain ⟨e0, -⟩ := idx_facts t
  show epsArr m c (((cfg0.win 0).blk t).view.emb (ix1 (0 : Fin 1))) = _
  refine congrArg (epsArr m c) (funext fun a => Fin.ext ?_)
  match a with
  | ⟨0, _⟩ => show win0_0.index t (0 : Fin 1) * 1 + 1 * 0 = 0; rw [e0]

theorem x_blk (c : Dev nD) (t : Fin cfg0.N) (r : Fin 5000) (d : Fin 128) :
    xBlk m c t (ix2 r d) = xArr m c (ix2 (Cert.Spec.nodeOf t.val (lt10 t) r) d) := by
  obtain ⟨-, e0, e1, -⟩ := idx_facts t
  show xArr m c (((cfg0.win 1).blk t).view.emb (ix2 r d)) = _
  refine congrArg (xArr m c) (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 128 + 1 * d.val = d.val; rw [e1]; omega

/-- Any [50000, 128] array read through the third window's block at point `t`: row `r` of the block is row
    `5000·t + r` of the array. (Stated for an arbitrary array: the two arrays the host computes are never opened.) -/
theorem read_win2 (A : Vec Ideal S50000x128 .f32) (t : Fin cfg0.N) (r : Fin 5000) (d : Fin 128) :
    ((cfg0.win 2).blk t).view.read (Elt Ideal) A (ix2 r d) = A (ix2 (Cert.Spec.nodeOf t.val (lt10 t) r) d) := by
  obtain ⟨-, -, -, e0, e1, -⟩ := idx_facts t
  show A (((cfg0.win 2).blk t).view.emb (ix2 r d)) = _
  refine congrArg A (funext fun a => Fin.ext ?_)
  match a with
  | ⟨0, _⟩ => show win0_2.index t (0 : Fin 2) * 5000 + 1 * r.val = 5000 * t.val + r.val; rw [e0]; omega
  | ⟨1, _⟩ => show win0_2.index t (1 : Fin 2) * 128 + 1 * d.val = d.val; rw [e1]; omega

/-- The same for any [50000, 64] array through the fourth window's block. -/
theorem read_win3 (A : Vec Ideal S50000x64 .bf16) (t : Fin cfg0.N) (r : Fin 5000) (g : Fin 64) :
    ((cfg0.win 3).blk t).view.read (Elt Ideal) A (ix2 r g) = A (ix2 (Cert.Spec.nodeOf t.val (lt10 t) r) g) := by
  obtain ⟨-, -, -, -, -, e0, e1, -⟩ := idx_facts t
  show A (((cfg0.win 3).blk t).view.emb (ix2 r g)) = _
  refine congrArg A (funext fun a => Fin.ext ?_)
  match a with
  | ⟨0, _⟩ => show win0_3.index t (0 : Fin 2) * 5000 + 1 * r.val = 5000 * t.val + r.val; rw [e0]; omega
  | ⟨1, _⟩ => show win0_3.index t (1 : Fin 2) * 64 + 1 * g.val = g.val; rw [e1]; omega

/-- The neighbour sums' block is the block of the array of neighbour sums (as whole arrays, no index applied). -/
theorem aggBlk_def (c : Dev nD) (t : Fin cfg0.N) :
    aggBlk m c t = ((cfg0.win 2).blk t).view.read (Elt Ideal) (aggArr m c) := rfl

/-- Likewise the memberships' block. -/
theorem memberBlk_def (c : Dev nD) (t : Fin cfg0.N) :
    memberBlk m c t = ((cfg0.win 3).blk t).view.read (Elt Ideal) (memberArr m c) := rfl

theorem agg_blk (c : Dev nD) (t : Fin cfg0.N) (r : Fin 5000) (d : Fin 128) :
    aggBlk m c t (ix2 r d) = aggArr m c (ix2 (Cert.Spec.nodeOf t.val (lt10 t) r) d) :=
  (congrFun (aggBlk_def m c t) (ix2 r d)).trans (read_win2 (aggArr m c) t r d)

theorem member_blk (c : Dev nD) (t : Fin cfg0.N) (r : Fin 5000) (g : Fin 64) :
    memberBlk m c t (ix2 r g) = memberArr m c (ix2 (Cert.Spec.nodeOf t.val (lt10 t) r) g) :=
  (congrFun (memberBlk_def m c t) (ix2 r g)).trans (read_win3 (memberArr m c) t r g)

theorem w_blk (c : Dev nD) (t : Fin cfg0.N) (k d : Fin 128) : wBlk m c t (ix2 k d) = wArr m c (ix2 k d) := by
  obtain ⟨-, -, -, -, -, -, -, e0, e1, -⟩ := idx_facts t
  show wArr m c (((cfg0.win 4).blk t).view.emb (ix2 k d)) = _
  refine congrArg (wArr m c) (funext fun a => Fin.ext ?_)
  match a with
  | ⟨0, _⟩ => show win0_4.index t (0 : Fin 2) * 128 + 1 * k.val = k.val; rw [e0]; omega
  | ⟨1, _⟩ => show win0_4.index t (1 : Fin 2) * 128 + 1 * d.val = d.val; rw [e1]; omega

theorem b_blk (c : Dev nD) (t : Fin cfg0.N) (d : Fin 128) : bBlk m c t (ix1 d) = bArr m c (ix1 d) := by
  obtain ⟨-, -, -, -, -, -, -, -, -, e0, -⟩ := idx_facts t
  show bArr m c (((cfg0.win 5).blk t).view.emb (ix1 d)) = _
  refine congrArg (bArr m c) (funext fun a => Fin.ext ?_)
  match a with
  | ⟨0, _⟩ => show win0_5.index t (0 : Fin 1) * 128 + 1 * d.val = d.val; rw [e0]; omega

/-- The node update of point `t`'s blocks at row `r` is the specification's at node `5000·t + r`. -/
theorem update_blk (c : Dev nD) (t : Fin cfg0.N) (r : Fin 5000) (d : Fin 128) :
    k0_pay2 (F := Ideal) (epsBlk m c t) (xBlk m c t) (aggBlk m c t) (ix2 r d)
      = Cert.Spec.nodeOut (xArr m c) (epsArr m c) (aggArr m c) (ix2 (Cert.Spec.nodeOf t.val (lt10 t) r) d) := by
  rw [Cert.KernelIdeal.Payload.update_apply, eps_blk, x_blk, agg_blk]
  rfl

end Cert.KernelIdeal.Blocks

end
-- ==== Proof.NodeValue.lean ====
/-
  The first result array after the run. At every grid point the body stores the node update of the point's blocks
  into the first output's buffer, and the buffer is written back to rows `5000·t … 5000·t + 4999` of the array; what is
  written is those rows of the specification's node update, and the ten row blocks cover the array. So the array
  ends holding the specification's first result.
-/
import proofs.«413581_j53060025975246_1_alg».proof.Proof.Gen.KernelIdeal.Value
import proofs.«413581_j53060025975246_1_alg».proof.Proof.Pieces
import proofs.«413581_j53060025975246_1_alg».proof.Proof.Blocks

noncomputable section

namespace Cert.KernelIdeal.NodeValue

open Cert.KernelIdeal Cert.KernelIdeal.Gen Cert.KernelIdeal.HostArrays Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Whichever of the three control cases point `t` is in, the first output's buffer ends at the node update of
    the point's blocks. -/
theorem out_at (c : Dev nD) (t : Fin cfg0.N) :
    (outsAt0 m c t.val t.isLt).1 = k0_pay2 (F := Ideal) (epsBlk m c t) (xBlk m c t) (aggBlk m c t) := by
  have hN := lt10 t
  by_cases h0 : t.val % 10 = 0
  · have h1 : ¬t.val % 10 = 9 := by omega
    rw [outsAt0_A m c t h0 h1]
    dsimp only
    exact Cert.KernelIdeal.Pieces.node_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)
      ((hcond0_0 t).mpr h0) (fun h => h1 ((hcond0_1 t).mp h))
  · by_cases h1 : t.val % 10 = 9
    · rw [outsAt0_C m c t h0 h1]
      dsimp only
      exact Cert.KernelIdeal.Pieces.node_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)
        (outsAt0 m c (t.val - 1) (Nat.lt_of_le_of_lt (Nat.sub_le _ _) t.isLt)).2.2 (fun h => h0 ((hcond0_0 t).mp h)) ((hcond0_1 t).mpr h1)
    · rw [outsAt0_B m c t h0 h1]
      dsimp only
      exact Cert.KernelIdeal.Pieces.node_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)
        (outsAt0 m c (t.val - 1) (Nat.lt_of_le_of_lt (Nat.sub_le _ _) t.isLt)).2.2 (fun h => h0 ((hcond0_0 t).mp h)) (fun h => h1 ((hcond0_1 t).mp h))

/-- What point `t` writes back is block `t` of the specification's node update. -/
theorem flushed6_eq (c : Dev nD) (t : Fin cfg0.N) :
    (dats m 0 c).flushed 6 t
      = ((cfg0.win 6).blk t).view.read (Elt Ideal) (Cert.Spec.outG (xArr m c) (epsArr m c) (aggArr m c)) := by
  rw [Cert.KernelIdeal.Value.flushed6, out_at]
  obtain ⟨-, -, -, -, -, -, -, -, -, -, e0, e1, -⟩ := idx_facts t
  refine funext fun (j : S5000x128.Idx) => ?_
  obtain ⟨r, d, rfl⟩ : ∃ (r : Fin 5000) (d : Fin 128), j = ix2 r d := ⟨j 0, j 1, eq_ix2 j⟩
  show k0_pay2 (F := Ideal) (epsBlk m c t) (xBlk m c t) (aggBlk m c t) (ix2 r d)
      = Cert.Spec.nodeOut (xArr m c) (epsArr m c) (aggArr m c) (((cfg0.win 6).blk t).view.emb (ix2 r d))
  rw [update_blk]
  refine congrArg (Cert.Spec.nodeOut (xArr m c) (epsArr m c) (aggArr m c)) (funext fun a => Fin.ext ?_)
  match a with
  | ⟨0, _⟩ => show 5000 * t.val + r.val = win0_6.index t (0 : Fin 2) * 5000 + 1 * r.val; rw [e0]; omega
  | ⟨1, _⟩ => show d.val = win0_6.index t (1 : Fin 2) * 128 + 1 * d.val; rw [e1]; omega

/-- Row `n` of the array lies in the block of point `n / 5000`. -/
theorem cover6 (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  have ht : (i 0).val / 5000 < cfg0.N := by rw [show cfg0.N = 10 from N_0]; omega
  obtain ⟨-, -, -, -, -, -, -, -, -, -, e0, e1, -⟩ := idx_facts ⟨(i 0).val / 5000, ht⟩
  refine ⟨⟨(i 0).val / 5000, ht⟩, flush0_6 _, ?_⟩
  show i ∈ ((View.whole main_v21_0).slice (win0_6.rect ⟨(i 0).val / 5000, ht⟩)).set
  rw [View.set_slice_whole, Rect.mem_set_unit]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

/-- The first result array ends holding the specification's node update. -/
theorem final6 (c : Dev nD) :
    (dats m 0 c).arrAt 6 cfg0.N = Cert.Spec.outG (xArr m c) (epsArr m c) (aggArr m c) :=
  (dats m 0 c).arrAt_eq_of_cover 6 (Cert.Spec.outG (xArr m c) (epsArr m c) (aggArr m c))
    (fun t _ => flushed6_eq m c t) (cover6)

end Cert.KernelIdeal.NodeValue

end
-- ==== Proof.PoolValue.lean ====
/-
  The second result array after the run. The scratch accumulator is set to zero at the first grid point and every
  point adds, at graph `g` and column `d`, the sum over the point's 5000 nodes of membership(n, g) times the node's
  linear prediction at `d` — that is, the sum over the block of the specification's summand (the prediction if the
  node's graph id is `g`, else zero). Folding the ten points gives zero plus the ten block sums, which is the sum
  over all 50000 nodes: the specification's pooled value. The last point copies the accumulator into the second
  output's buffer, which is written back once, as the whole [64, 128] array.
-/
import proofs.«413581_j53060025975246_1_alg».proof.Proof.Gen.KernelIdeal.Value
import proofs.«413581_j53060025975246_1_alg».proof.Proof.Pieces
import proofs.«413581_j53060025975246_1_alg».proof.Proof.Blocks

set_option maxRecDepth 16384

noncomputable section

namespace Cert.KernelIdeal.PoolValue

open Cert.KernelIdeal Cert.KernelIdeal.Gen Cert.KernelIdeal.HostArrays Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Node `n`'s summand for graph `g`, column `d`: its linear prediction if its graph id is `g`, else zero. -/
def summand (c : Dev nD) (g : Fin 64) (d : Fin 128) (n : Fin 50000) : EReal :=
  if batchArr m c (ix1 n) = BitVec.ofNat 32 g.val then
    Cert.Spec.lin (Cert.Spec.nodeOut (xArr m c) (epsArr m c) (aggArr m c)) (wArr m c) (bArr m c) n d
  else 0

/-- What grid point `s` adds to the accumulator at an index: block `s`'s sum of the summands. -/
def addend (c : Dev nD) (s : Nat) (i : S64x128.Idx) : EReal :=
  Cert.Spec.blockSum (summand m c ⟨(i 0).val, idx2_lt0 i⟩ ⟨(i 1).val, idx2_lt1 i⟩) s

/-- The linear prediction of the node update of point `t`'s blocks, at row `r`, is the specification's at node
    `5000·t + r`. -/
theorem lin_blk (c : Dev nD) (t : Fin cfg0.N) (r : Fin 5000) (d : Fin 128) :
    (∑ k : Fin 128, k0_pay2 (F := Ideal) (epsBlk m c t) (xBlk m c t) (aggBlk m c t) (ix2 r k) * wBlk m c t (ix2 k d))
        + bBlk m c t (ix1 d)
      = Cert.Spec.lin (Cert.Spec.nodeOut (xArr m c) (epsArr m c) (aggArr m c)) (wArr m c) (bArr m c)
          (Cert.Spec.nodeOf t.val (lt10 t) r) d := by
  unfold Cert.Spec.lin
  rw [b_blk]
  refine congrArg (· + bArr m c (ix1 d)) (Finset.sum_congr rfl fun k _ => ?_)
  rw [update_blk, w_blk]

/-- One point's accumulator update at `(g, d)`: the previous contents plus the point's addend. -/
theorem update_at (c : Dev nD) (t : Fin cfg0.N) (acc : Vec Ideal S64x128 .f32) (g : Fin 64) (d : Fin 128) :
    k0_pay3 (F := Ideal) (epsBlk m c t) (xBlk m c t) (aggBlk m c t) (wBlk m c t) (bBlk m c t) (memberBlk m c t) acc (ix2 g d)
      = acc (ix2 g d) + addend m c t.val (ix2 g d) := by
  rw [Cert.KernelIdeal.Payload.accumulate_apply]
  refine congrArg (acc (ix2 g d) + ·) ?_
  show _ = Cert.Spec.blockSum (summand m c g d) t.val
  unfold Cert.Spec.blockSum
  rw [dif_pos (lt10 t)]
  refine Finset.sum_congr rfl fun r _ => ?_
  rw [lin_blk, member_blk, member_mul]
  rfl

/-- The first point resets the accumulator to the zero block and updates that. -/
theorem step_first (c : Dev nD) (h : 0 < cfg0.N) (acc : Vec Ideal S64x128 .f32) :
    Cert.KernelIdeal.Value.scAt0_0 m c 0 h acc
      = k0_pay3 (F := Ideal) (epsBlk m c ⟨0, h⟩) (xBlk m c ⟨0, h⟩) (aggBlk m c ⟨0, h⟩) (wBlk m c ⟨0, h⟩) (bBlk m c ⟨0, h⟩)
          (memberBlk m c ⟨0, h⟩) (k0_pay1 (F := Ideal)) := by
  unfold Cert.KernelIdeal.Value.scAt0_0
  rw [dif_pos (Nat.zero_mod 10), dif_neg (by decide)]
  exact Cert.KernelIdeal.Pieces.acc_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _ _

/-- Every later point updates what the point before left. -/
theorem step_next (c : Dev nD) (n : Nat) (h : n < cfg0.N) (hn : 0 < n) (acc : Vec Ideal S64x128 .f32) :
    Cert.KernelIdeal.Value.scAt0_0 m c n h acc
      = k0_pay3 (F := Ideal) (epsBlk m c ⟨n, h⟩) (xBlk m c ⟨n, h⟩) (aggBlk m c ⟨n, h⟩) (wBlk m c ⟨n, h⟩) (bBlk m c ⟨n, h⟩)
          (memberBlk m c ⟨n, h⟩) acc := by
  have hN : n < 10 := lt_of_lt_of_eq h N_0
  have h0 : ¬n % 10 = 0 := by omega
  unfold Cert.KernelIdeal.Value.scAt0_0
  rw [dif_neg h0]
  by_cases h1 : n % 10 = 9
  · rw [dif_pos h1]
    exact Cert.KernelIdeal.Pieces.acc_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) acc _ _
  · rw [dif_neg h1]
    exact Cert.KernelIdeal.Pieces.acc_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) acc _ _

/-- The zero block read at an index. -/
theorem zero_apply (i : S64x128.Idx) : k0_pay1 (F := Ideal) i = 0 := by
  unfold k0_pay1
  rw [shapeCast_self]
  exact Ideal.ofBits_zero_f32

/-- After point `n` the accumulator holds, at every index, the sum of the addends of points `0 … n`. -/
theorem acc_after (c : Dev nD) (n : Nat) (hn : n < cfg0.N) (i : S64x128.Idx) :
    (outsAt0 m c n hn).2.2 i = ∑ s ∈ Finset.range (n + 1), addend m c s i := by
  have hN : n < 10 := lt_of_lt_of_eq hn N_0
  rw [Cert.KernelIdeal.Value.soutsAt0_0_sweep m c n hn]
  have key := Pipeline.accAt_add_apply (N := cfg0.N)
    (fun n h => Cert.KernelIdeal.Value.scAt0_0 m c n h (VS0_0.read (Elt Ideal) VS0_0.junk))
    (Cert.KernelIdeal.Value.scAt0_0 m c) (fun _ => (0 : EReal)) (addend m c) 0 9
    (fun h i => by
      obtain ⟨g, d, rfl⟩ : ∃ (g : Fin 64) (d : Fin 128), i = ix2 g d := ⟨i 0, i 1, eq_ix2 i⟩
      show Cert.KernelIdeal.Value.scAt0_0 m c 0 h _ (ix2 g d) = _
      rw [step_first, update_at m c ⟨0, h⟩, zero_apply])
    (fun n h acc i hpos _ => by
      obtain ⟨g, d, rfl⟩ : ∃ (g : Fin 64) (d : Fin 128), i = ix2 g d := ⟨i 0, i 1, eq_ix2 i⟩
      rw [step_next m c n h hpos, update_at m c ⟨n, h⟩])
    n (by omega) (by omega) i
  rw [key, zero_add]
  simp only [Nat.zero_add]

/-- At the last point the second output's buffer receives what the accumulator ends at. -/
theorem pooled_at_last (c : Dev nD) (t : Fin cfg0.N) (h9 : t.val % 10 = 9) :
    (outsAt0 m c t.val t.isLt).2.1 = (outsAt0 m c t.val t.isLt).2.2 := by
  have hN := lt10 t
  have h0 : ¬t.val % 10 = 0 := by omega
  rw [outsAt0_C m c t h0 h9]
  dsimp only
  exact (Cert.KernelIdeal.Pieces.pooled_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 _ _).trans
    (Cert.KernelIdeal.Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.2 _ _).symm

/-- After the last point the accumulator holds the specification's pooled values. -/
theorem acc_last (c : Dev nD) :
    (outsAt0 m c t0_9.val t0_9.isLt).2.2
      = Cert.Spec.poolG (xArr m c) (epsArr m c) (aggArr m c) (wArr m c) (bArr m c) (batchArr m c) := by
  refine funext fun (j : S64x128.Idx) => ?_
  obtain ⟨g, d, rfl⟩ : ∃ (g : Fin 64) (d : Fin 128), j = ix2 g d := ⟨j 0, j 1, eq_ix2 j⟩
  rw [acc_after]
  show ∑ s ∈ Finset.range 10, Cert.Spec.blockSum (summand m c g d) s = Cert.Spec.pool (batchArr m c) _ g d
  rw [Cert.Spec.sum_blocks]
  rfl

/-- The one write-back of the second output, at the last point, writes the specification's pooled values: its
    block is block (0, 0) of a [64, 128] array in [64, 128] blocks, the whole array at zero offsets. -/
theorem flushed7_eq (c : Dev nD) (t : Fin cfg0.N) (hf : (cfg0.win 7).flush t = true) :
    (dats m 0 c).flushed 7 t
      = ((cfg0.win 7).blk t).view.read (Elt Ideal)
          (Cert.Spec.poolG (xArr m c) (epsArr m c) (aggArr m c) (wArr m c) (bArr m c) (batchArr m c)) := by
  have hN := lt10 t
  have h9 : t.val % 10 = 9 := (flush0_7 t).mp hf
  have ht : t.val = 9 := by omega
  obtain rfl : t = t0_9 := Fin.ext ht
  rw [Cert.KernelIdeal.Value.flushed7, pooled_at_last m c t0_9 h9, acc_last]
  have hz' : (fun a => win0_7.index t0_9 a * main_v21_1.ty.shape.size a) = fun _ => 0 :=
    funext fun a => by fin_cases a <;> decide
  exact (Memref.read_access_unit_zero (Elt Ideal) main_v21_1 hz' (fun a => by rw [congrFun hz' a]; simp)
    (Cert.Spec.poolG (xArr m c) (epsArr m c) (aggArr m c) (wArr m c) (bArr m c) (batchArr m c))).symm

/-- The last point's block is the whole array. -/
theorem cover7 (i : S64x128.Idx) :
    ∃ t : Fin cfg0.N, (cfg0.win 7).flush t = true ∧ i ∈ ((cfg0.win 7).blk t).view.set := by
  have h0 : (i 0).val < 64 := (i 0).isLt
  have h1 : (i 1).val < 128 := (i 1).isLt
  have ht : 9 < cfg0.N := by rw [show cfg0.N = 10 from N_0]; decide
  obtain ⟨-, -, -, -, -, -, -, -, -, -, -, -, e0, e1⟩ := idx_facts ⟨9, ht⟩
  refine ⟨⟨9, ht⟩, (flush0_7 ⟨9, ht⟩).mpr rfl, ?_⟩
  show i ∈ ((View.whole main_v21_1).slice (win0_7.rect ⟨9, ht⟩)).set
  rw [View.set_slice_whole, Rect.mem_set_unit]
  intro a
  match a with
  | ⟨0, _⟩ =>
    show win0_7.index ⟨9, ht⟩ (0 : Fin 2) * 64 ≤ (i 0).val ∧ (i 0).val < win0_7.index ⟨9, ht⟩ (0 : Fin 2) * 64 + 64
    rw [e0]; omega
  | ⟨1, _⟩ =>
    show win0_7.index ⟨9, ht⟩ (1 : Fin 2) * 128 ≤ (i 1).val ∧ (i 1).val < win0_7.index ⟨9, ht⟩ (1 : Fin 2) * 128 + 128
    rw [e1]; omega

/-- The second result array ends holding the specification's pooled linear prediction. -/
theorem final7 (c : Dev nD) :
    (dats m 0 c).arrAt 7 cfg0.N
      = Cert.Spec.poolG (xArr m c) (epsArr m c) (aggArr m c) (wArr m c) (bArr m c) (batchArr m c) :=
  (dats m 0 c).arrAt_eq_of_cover 7
    (Cert.Spec.poolG (xArr m c) (epsArr m c) (aggArr m c) (wArr m c) (bArr m c) (batchArr m c))
    (fun t hf => flushed7_eq m c t hf) (cover7)

end Cert.KernelIdeal.PoolValue

end
-- ==== Proof.lean ====
/- The claim: a graph-network layer with sum pooling, as a tiled accelerator kernel and as plain array code.

   Both programs compute, for 50000 nodes with 128 features in 64 graphs,
     out    = max ((1 + eps) · x + agg, 0)          (agg: each node's summed neighbour features),
     pooled = for each graph, the sum over its nodes of  out · W + b.
   The two share the host computation of `agg`. The kernel walks ten blocks of 5000 nodes: each grid point writes
   its block of `out`, and adds into a [64, 128] accumulator the product of the block's transposed 0/1 membership
   matrix with the block's `out · W + b`; the accumulator is zeroed at the first point and copied out at the last.
   The reference scatter-adds the rows of `out · W + b` by graph id. Over the extended reals both are the sum, over
   the nodes whose id is the graph's, of the node's row: a 0/1 factor selects or drops a summand (zero times anything
   is zero), a node with an id outside 0 … 63 matches no membership column and is dropped by the scatter alike, the
   matrix products are exact sums whatever format their factors were rounded to, and splitting a sum into ten block
   sums only re-associates additions. No finiteness of the inputs is used.

   The frames are the generated ones (the reference's is its run with the results dropped); the idealization
   rewrote nothing, so `preserves` is trivial; `algebraic` sets the kernel's run (its two result arrays read off the
   frame run, modules NodeValue and PoolValue) beside the reference's run (module RefValue), both at the
   specification (module Spec) of the launch arrays. -/
import proofs.«413581_j53060025975246_1_alg».proof.Defs
import proofs.«413581_j53060025975246_1_alg».proof.Proof.Gen.Kernel
import proofs.«413581_j53060025975246_1_alg».proof.Proof.Gen.Kernel.Skeleton
import proofs.«413581_j53060025975246_1_alg».proof.Proof.Gen.Kernel.Launch
import proofs.«413581_j53060025975246_1_alg».proof.Proof.Gen.Kernel.Points
import proofs.«413581_j53060025975246_1_alg».proof.Proof.Gen.Kernel.Frame
import proofs.«413581_j53060025975246_1_alg».proof.Proof.Gen.KernelIdeal
import proofs.«413581_j53060025975246_1_alg».proof.Proof.Gen.KernelIdeal.Skeleton
import proofs.«413581_j53060025975246_1_alg».proof.Proof.Gen.KernelIdeal.Launch
import proofs.«413581_j53060025975246_1_alg».proof.Proof.Gen.KernelIdeal.Points
import proofs.«413581_j53060025975246_1_alg».proof.Proof.Gen.KernelIdeal.Frame
import proofs.«413581_j53060025975246_1_alg».proof.Proof.Gen.ReferenceIdeal
import proofs.«413581_j53060025975246_1_alg».proof.Proof.Gen.Pre_finite_inputs
import proofs.«413581_j53060025975246_1_alg».proof.Proof.Gen.KernelIdeal.Value
import proofs.«413581_j53060025975246_1_alg».proof.Proof.Gen.ReferenceIdeal.Run
import proofs.«413581_j53060025975246_1_alg».proof.Proof.Gen.ReferenceIdeal.Read
import proofs.«413581_j53060025975246_1_alg».proof.Proof.RefValue
import proofs.«413581_j53060025975246_1_alg».proof.Proof.NodeValue
import proofs.«413581_j53060025975246_1_alg».proof.Proof.PoolValue
import Idealize.ShloMosaic.Adequacy
import Idealize.ShloMosaic.Init

noncomputable section

namespace Cert.Proof

open Idealize.ShloMosaic Idealize.SL.Sem Idealize.ShloMosaic.TcCoe

/-- The kernel's first result array, over the launch memory: the specification's node update, with the
    reference's own neighbour sums. -/
theorem kernel_out (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 6 Cert.KernelIdeal.cfg0.N
      = Cert.Spec.outG (m ((c : Thread Cert.KernelIdeal.nD Cert.KernelIdeal.τ).loc Cert.KernelIdeal.main_arg0)) (m ((c : Thread Cert.KernelIdeal.nD Cert.KernelIdeal.τ).loc Cert.KernelIdeal.main_arg1))
          (Cert.ReferenceIdeal.Read.val_main_v13 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg4))) := by
  rw [Cert.KernelIdeal.NodeValue.final6, Cert.KernelIdeal.HostArrays.xArr_eq, Cert.KernelIdeal.HostArrays.epsArr_eq, Cert.KernelIdeal.HostArrays.agg_eq]

/-- The kernel's second result array, over the launch memory: the specification's pooled prediction. -/
theorem kernel_pool (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 7 Cert.KernelIdeal.cfg0.N
      = Cert.Spec.poolG (m ((c : Thread Cert.KernelIdeal.nD Cert.KernelIdeal.τ).loc Cert.KernelIdeal.main_arg0)) (m ((c : Thread Cert.KernelIdeal.nD Cert.KernelIdeal.τ).loc Cert.KernelIdeal.main_arg1))
          (Cert.ReferenceIdeal.Read.val_main_v13 (F := Ideal) (m ((c : Thread Cert.KernelIdeal.nD Cert.KernelIdeal.τ).loc Cert.KernelIdeal.main_arg0))
            (m ((c : Thread Cert.KernelIdeal.nD Cert.KernelIdeal.τ).loc Cert.KernelIdeal.main_arg4)))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg5)) := by
  rw [Cert.KernelIdeal.PoolValue.final7, Cert.KernelIdeal.HostArrays.xArr_eq, Cert.KernelIdeal.HostArrays.epsArr_eq, Cert.KernelIdeal.HostArrays.agg_eq,
    Cert.KernelIdeal.HostArrays.wArr_eq, Cert.KernelIdeal.HostArrays.bArr_eq]

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both programs end with the specification's two arrays. -/
theorem algebraic : Cert.algebraic_KernelIdeal_ReferenceIdeal := by
  intro m ρ m' ρ' _ hagree
  refine ⟨_, _, (θ_run Cert.KernelIdeal.defs _ _).mono (fun r h c =>
      ⟨(h c).1.trans (kernel_out m c), (h c).2.1.trans (kernel_pool m c), (h c).2.2⟩)
      (Cert.KernelIdeal.Value.run_blocks (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.2.2.1]
    exact (Cert.ReferenceIdeal.Read.val_main_v20_eq _ _ _).trans (Cert.RefValue.out_eq _ _ _)
  · rw [(hagree c).1, (hagree c).2.1, (hagree c).2.2.1, (hagree c).2.2.2.1, (hagree c).2.2.2.2.1, (hagree c).2.2.2.2.2]
    exact (Cert.ReferenceIdeal.Read.val_main_v27_eq _ _ _ _ _ _).trans (Cert.RefValue.pool_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
